-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S20x256 : Shape := ⟨2, ![20, 256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S20x256 : S_.BroadcastsInDim S20x256 (![] : Fin 0 → Fin S20x256.rank)
  reducesTo_S20x256_S_d0_1 : S20x256.ReducesTo [0, 1] S_

variable [Facts]

def fn {F : FTy → Type} [FloatOps F] (main_arg0 : FVec F S8x2048x256 .f32) (main_arg1 : FVec F S20x256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S20x256 .f32 := Host.absf main_arg1
  let main_cst_0 : FVec F S_ .f32 := constant S_ .f32 0x7F800000#32
  let main_v5 : FVec F S20x256 .f32 := broadcastInDim S20x256 ![] bcast_S_S20x256 main_cst_0
  let main_v6 : IVec S20x256 1 := cmpf .olt main_v4 main_v5
  let main_c_1 : IVec S_ 1 := constantI S_ 1 1#1
  let main_v7 : IVec S_ 1 := (fun x v => Host.reduce IntOp.andi x v reducesTo_S20x256_S_d0_1 h_S_) main_v6 main_c_1
  let main_v8 : IVec S_ 1 := andi main_v3 main_v7
  main_v8
-- ==== Kernel.lean ====
abbrev S8x2048x256 : Shape := ⟨3, ![8, 2048, 256]⟩
abbrev S20x256 : Shape := ⟨2, ![20, 256]⟩
abbrev S8x256x2048 : Shape := ⟨3, ![8, 256, 2048]⟩
abbrev S20x256x1 : Shape := ⟨3, ![20, 256, 1]⟩
abbrev S160x256x2048 : Shape := ⟨3, ![160, 256, 2048]⟩
abbrev S1x256x2048 : Shape := ⟨3, ![1, 256, 2048]⟩
abbrev S1x256x1 : Shape := ⟨3, ![1, 256, 1]⟩

abbrev nBuf : Space → Nat
  | .hbm => 5
  | .vmem => 6
  | .smem => 0
  | _ => 0

abbrev bufTy : (tb : Table) → Fin (tcTables nBuf tb) → BufTy
  | .hbm, ⟨0, _⟩ => ⟨S8x2048x256, .f32⟩
  | .hbm, ⟨1, _⟩ => ⟨S20x256, .f32⟩
  | .hbm, ⟨2, _⟩ => ⟨S8x256x2048, .f32⟩
  | .hbm, ⟨3, _⟩ => ⟨S20x256x1, .f32⟩
  | .hbm, ⟨4, _⟩ => ⟨S160x256x2048, .f32⟩
  | .local _ .vmem, ⟨0, _⟩ => ⟨S1x256x2048, .f32⟩
  | .local _ .vmem, ⟨1, _⟩ => ⟨S1x256x2048, .f32⟩
  | .local _ .vmem, ⟨2, _⟩ => ⟨S1x256x1, .f32⟩
  | .local _ .vmem, ⟨3, _⟩ => ⟨S1x256x1, .f32⟩
  | .local _ .vmem, ⟨4, _⟩ => ⟨S1x256x2048, .f32⟩
  | .local _ .vmem, ⟨5, _⟩ => ⟨S1x256x2048, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 20], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c20_i32 : BitVec 32 := 20#32
  let v0 : BitVec 32 := Scalar.muli arg0 c20_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S8x2048x256_S8x256x2048_0_2_1 : S8x2048x256.Transposes [0, 2, 1] S8x256x2048
  shapeCasts_S20x256_S20x256x1 : S20x256.ShapeCasts S20x256x1
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S1x256x2048 : S1x256x2048.ShapeCasts S1x256x2048
  inb_S1x256x1_S1x256x1_0_0_0 : ∀ a, (![0, 0, 0] : Fin 3 → Nat) a + S1x256x1.size a ≤ S1x256x1.size a
  h_S1x256x1 : 0 < S1x256x1.numel
  shapeCasts_S1x256x1_S1x256x1 : S1x256x1.ShapeCasts S1x256x1
  broadcasts_S1x256x1_S1x256x2048 : S1x256x1.Broadcasts S1x256x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x256x2048.size a
  hwx0_0 : ∀ i : grid0.Coords, EltTy.bits .f32 = 32 ∨ (Rect.block (s := S8x256x2048) S1x256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1.size a ≤ S20x256x1.size a
  hwx0_1 : ∀ i : grid0.Coords, EltTy.bits .f32 = 32 ∨ (Rect.block (s := S20x256x1) S1x256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S160x256x2048.size a
  hwx0_2 : ∀ i : grid0.Coords, EltTy.bits .f32 = 32 ∨ (Rect.block (s := S160x256x2048) S1x256x2048.size (cc0_transform_2 i) (hinb0_2 i)).WholeWords (EltTy.packing .f32)

variable [Facts₀]

abbrev win0_0 : Pipeline.Window sig grid0 :=
  Pipeline.Window.ofSpec (Memref.whole main_v0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S20x256 : Shape := ⟨2, ![20, 256]⟩
abbrev S8x256x2048 : Shape := ⟨3, ![8, 256, 2048]⟩
abbrev S8x1x256x2048 : Shape := ⟨4, ![8, 1, 256, 2048]⟩
abbrev S1x20x256x1 : Shape := ⟨4, ![1, 20, 256, 1]⟩
abbrev S8x20x256x2048 : Shape := ⟨4, ![8, 20, 256, 2048]⟩
abbrev S160x256x2048 : Shape := ⟨3, ![160, 256, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S20x256, .f32⟩
  | .hbm, ⟨2, _⟩ => ⟨S8x256x2048, .f32⟩
  | .hbm, ⟨3, _⟩ => ⟨S8x1x256x2048, .f32⟩
  | .hbm, ⟨4, _⟩ => ⟨S1x20x256x1, .f32⟩
  | .hbm, ⟨5, _⟩ => ⟨S8x20x256x2048, .f32⟩
  | .hbm, ⟨6, _⟩ => ⟨S8x20x256x2048, .f32⟩
  | .hbm, ⟨7, _⟩ => ⟨S8x20x256x2048, .f32⟩
  | .hbm, ⟨8, _⟩ => ⟨S160x256x2048, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  transposes_S8x2048x256_S8x256x2048_0_2_1 : S8x2048x256.Transposes [0, 2, 1] S8x256x2048
  bcast_S8x256x2048_S8x1x256x2048_0_2_3 : S8x256x2048.BroadcastsInDim S8x1x256x2048 (![0, 2, 3] : Fin 3 → Fin S8x1x256x2048.rank)
  bcast_S20x256_S1x20x256x1_1_2 : S20x256.BroadcastsInDim S1x20x256x1 (![1, 2] : Fin 2 → Fin S1x20x256x1.rank)
  bcast_S8x1x256x2048_S8x20x256x2048_0_1_2_3 : S8x1x256x2048.BroadcastsInDim S8x20x256x2048 (![0, 1, 2, 3] : Fin 4 → Fin S8x20x256x2048.rank)
  bcast_S1x20x256x1_S8x20x256x2048_0_1_2_3 : S1x20x256x1.BroadcastsInDim S8x20x256x2048 (![0, 1, 2, 3] : Fin 4 → Fin S8x20x256x2048.rank)
  shapeCasts_S8x20x256x2048_S160x256x2048 : S8x20x256x2048.ShapeCasts S160x256x2048

variable [Facts₀]

class Facts : Prop extends Facts₀ where

variable [Facts]
-- ==== Proof.ChannelScale.lean ====
/-
  The specification shared by the two programs. The query tensor `q` is [8, 2048, 256] (batch, position, channel) and the
  weight table `w` is [20, 256] (class, channel). The result is [160, 256, 2048]: row `r` of it belongs to batch `r / 20`
  and class `r % 20`, and

      result[r, d, s] = q[r / 20, s, d] · w[r % 20, d].

  Each entry is ONE product of one entry of `q` and one entry of `w`, so nothing here depends on the float instance: the
  function is stated for every instance with that instance's own product, and no algebraic law (hence no finiteness) is
  ever needed to compare the two programs — both compute this same product, entry by entry.

  Also stated: the same function written over the two arrays the kernel's grid actually reads — the query with its last
  two axes exchanged, [8, 256, 2048], and the weights with a trailing unit axis, [20, 256, 1] — and that the two forms
  agree when those arrays are that transpose and that reshape.
-/
import Idealize.ShloMosaic.PureOps.Ideal
import Idealize.ShloMosaic.Lib.ValueIdx
import Idealize.ShloMosaic.Lib.Pipeline.Value

noncomputable section

namespace Cert.ChannelScale

open Idealize.ShloMosaic Idealize.ShloMosaic.ValueIdx

variable {F : FTy → Type} [FloatOps F]

/-- The query tensor's shape: batch × position × channel. -/
abbrev SQ : Shape := ⟨3, ![8, 2048, 256]⟩
/-- The weight table's shape: class × channel. -/
abbrev SW : Shape := ⟨2, ![20, 256]⟩
/-- The query with position and channel exchanged: batch × channel × position. -/
abbrev SQt : Shape := ⟨3, ![8, 256, 2048]⟩
/-- The weight table with a trailing unit axis. -/
abbrev SW1 : Shape := ⟨3, ![20, 256, 1]⟩
/-- The result's shape: (batch, class) flattened × channel × position. -/
abbrev SO : Shape := ⟨3, ![160, 256, 2048]⟩

/-- The batch a result row belongs to. -/
abbrev batchOf (i : SO.Idx) : Fin 8 := ⟨(i 0).val / 20, by have h : (i 0).val < 160 := (i 0).isLt; omega⟩
/-- The class a result row belongs to. -/
abbrev classOf (i : SO.Idx) : Fin 20 := ⟨(i 0).val % 20, by omega⟩

/-- THE RESULT: entry (r, d, s) is q[r / 20, s, d] · w[r % 20, d]. -/
def scaled (q : SQ.Idx → Elt F .f32) (w : SW.Idx → Elt F .f32) : SO.Idx → Elt F .f32 :=
  fun i => FloatOps.mulf (q (ix3 (batchOf i) (i 2) (i 1))) (w (ix2 (classOf i) (i 1)))

/-- The same over the transposed query and the weights with a unit axis: entry (r, d, s) is qt[r / 20, d, s] · w1[r % 20, d, 0]. -/
def scaledT (qt : SQt.Idx → Elt F .f32) (w1 : SW1.Idx → Elt F .f32) : SO.Idx → Elt F .f32 :=
  fun i => FloatOps.mulf (qt (ix3 (batchOf i) (i 1) (i 2))) (w1 (ix3 (classOf i) (i 1) (0 : Fin 1)))

/-- With `qt` the transpose of `q` (last two axes exchanged) and `w1` the reshape of `w`, the two forms are one function:
    the transpose read at (b, d, s) is `q` at (b, s, d); the reshape keeps the row-major position, and (n, d, 0) of
    [20, 256, 1] sits where (n, d) of [20, 256] does. -/
theorem scaledT_eq (q : SQ.Idx → Elt F .f32) (w : SW.Idx → Elt F .f32)
    (hT : SQ.Transposes [0, 2, 1] SQt) (hC : SW.ShapeCasts SW1) :
    scaledT (F := F) (transpose SQt [0, 2, 1] q hT) (shapeCast SW1 w hC) = scaled q w := by
  funext i
  unfold scaledT scaled
  have e0 : transpose SQt [0, 2, 1] q hT (ix3 (batchOf i) (i 1) (i 2)) = q (ix3 (batchOf i) (i 2) (i 1)) :=
    transpose_apply _ q hT _ _ fun c => match c with | ⟨0, _⟩ => rfl | ⟨1, _⟩ => rfl | ⟨2, _⟩ => rfl
  have e1 : shapeCast SW1 w hC (ix3 (classOf i) (i 1) (0 : Fin 1)) = w (ix2 (classOf i) (i 1)) :=
    shapeCast_apply w hC _ _ (by
      rw [Shape.rowMajor_val_two, Shape.rowMajor_val_three]
      show (i 0).val % 20 * 256 + (i 1).val = ((i 0).val % 20 * 256 + (i 1).val) * 1 + 0
      omega)
  rw [e0, e1]

end Cert.ChannelScale

end
-- ==== Proof.KernelScale.lean ====
/-
  The kernel's result array is the specification. The grid has 8 × 20 points; point `t` belongs to batch `t / 20` and
  class `t % 20`. At point `t` the body reads the [1, 256, 2048] block `t / 20` of the transposed query and the
  [1, 256, 1] block `t % 20` of the weights, multiplies the first by the second broadcast along the position axis, and
  writes the product back as block `t` of the [160, 256, 2048] result. So what point `t` writes at block coordinate
  (0, d, s) is qt[t / 20, d, s] · w1[t % 20, d, 0], which is the specification's entry at row `t`: every point writes
  the block of ONE function of the two arrays, and the 160 blocks tile the result (row `r` is in block `r`).
  Before the grid runs, @main transposes the query's last two axes and gives the weights a trailing unit axis; with
  those two arrays read back, the function is the specification of the arguments.
-/
import proofs.«100098_j72447508349057_1_alg».proof.Proof.Gen.KernelIdeal.Value
import proofs.«100098_j72447508349057_1_alg».proof.Proof.ChannelScale
import Idealize.ShloMosaic.Lib.Pipeline.Value
import Idealize.ShloMosaic.Lib.StableHlo.Run
import Idealize.ShloMosaic.Lib.Tactic

noncomputable section

namespace Cert.KernelIdeal.Scale

open Cert.KernelIdeal Cert.KernelIdeal.Gen Cert.KernelIdeal.Value Idealize.ShloMosaic Idealize.ShloMosaic.TcCoe Idealize.SL.Sem
open Idealize.ShloMosaic.ValueIdx Cert.ChannelScale
open Idealize.ShloMosaic.Pipeline (Dat)

variable {F : FTy → Type} [FloatOps F]
variable (m : (ℓ : Loc nD τ sig) → Buf (Elt F) ℓ) (ρ : Dev nD → PrngReg)

theorem zero_offsets : (![0, 0, 0] : Fin 3 → Nat) = fun _ => 0 := funext fun a => by fin_cases a <;> rfl

/-- What the body leaves in the output block, entry by entry: the query block's entry times the weight block's entry of
    the same channel (the weight block has one position, broadcast along the 2048). -/
theorem body_apply (x0 : Vec F S1x256x2048 .f32) (x1 : Vec F S1x256x1 .f32) (y : S1x256x2048.Idx) :
    out0_2 x0 x1 y = FloatOps.mulf (x0 y) (x1 (ix3 (0 : Fin 1) (y 1) (0 : Fin 1))) := by
  have hy0 : (y 0).val < 1 := (y 0).isLt
  unfold out0_2
  rw [canon2_eq]
  simp only [View.ld_unit_zero (S := S1x256x2048) zero_offsets, View.ld_unit_zero (S := S1x256x1) zero_offsets]
  show FloatOps.mulf (x0 (ix2_0 y)) (x1 (ix2_1 y)) = _
  have a0 : ix2_0 y = y := by
    funext a; apply Fin.ext
    match a with
    | ⟨0, _⟩ => show 0 = (y 0).val; omega
    | ⟨1, _⟩ => rfl
    | ⟨2, _⟩ => rfl
  have a1 : ix2_1 y = ix3 (0 : Fin 1) (y 1) (0 : Fin 1) := by
    funext a
    match a with
    | ⟨0, _⟩ => rfl
    | ⟨1, _⟩ => rfl
    | ⟨2, _⟩ => rfl
  exact congrArg₂ FloatOps.mulf (congrArg x0 a0) (congrArg x1 a1)

/-- The three index maps over the 160 grid points: the output's block index is the point's number, the query's is the
    point's batch, the weights' is the point's class; every other block coordinate is 0. -/
theorem block_indices : ∀ t : Fin cfg0.N,
    win0_2.index t (0 : Fin 3) = t.val ∧ win0_2.index t (1 : Fin 3) = 0 ∧ win0_2.index t (2 : Fin 3) = 0
    ∧ win0_0.index t (0 : Fin 3) = t.val / 20 ∧ win0_0.index t (1 : Fin 3) = 0 ∧ win0_0.index t (2 : Fin 3) = 0
    ∧ win0_1.index t (0 : Fin 3) = t.val % 20 ∧ win0_1.index t (1 : Fin 3) = 0 ∧ win0_1.index t (2 : Fin 3) = 0 :=
  (by decide +kernel : ∀ t : Fin grid0.N, _)

/-- WHAT POINT `t` WRITES BACK is block `t` of the specification's function of the two arrays the grid reads. -/
theorem flushed_eq (c : Dev nD) (t : Fin cfg0.N) :
    (dats m 0 c).flushed 2 t
      = ((cfg0.win 2).blk t).view.read (Elt F) (scaledT (V m c main_v0) (V m c main_v1)) := by
  rw [flushed2]
  obtain ⟨e0, e1, e2, e3, e4, e5, e6, e7, e8⟩ := block_indices t
  funext j
  have hj0 : (j 0).val < 1 := (j 0).isLt
  have hj1 : (j 1).val < 256 := (j 1).isLt
  have hj2 : (j 2).val < 2048 := (j 2).isLt
  show out0_2 (iblk m c 0 t) (iblk m c 1 t) j = scaledT (V m c main_v0) (V m c main_v1) (((cfg0.win 2).blk t).view.emb j)
  refine (body_apply (iblk m c 0 t) (iblk m c 1 t) j).trans ?_
  unfold scaledT
  show FloatOps.mulf (V m c main_v0 (((cfg0.win 0).blk t).view.emb j))
        (V m c main_v1 (((cfg0.win 1).blk t).view.emb (ix3 (0 : Fin 1) (j 1) (0 : Fin 1))))
      = FloatOps.mulf (V m c main_v0 (ix3 (batchOf (((cfg0.win 2).blk t).view.emb j)) ((((cfg0.win 2).blk t).view.emb j) 1) ((((cfg0.win 2).blk t).view.emb j) 2)))
        (V m c main_v1 (ix3 (classOf (((cfg0.win 2).blk t).view.emb j)) ((((cfg0.win 2).blk t).view.emb j) 1) (0 : Fin 1)))
  have h0 : ((cfg0.win 0).blk t).view.emb j
      = ix3 (batchOf (((cfg0.win 2).blk t).view.emb j)) ((((cfg0.win 2).blk t).view.emb j) 1) ((((cfg0.win 2).blk t).view.emb j) 2) := by
    funext a; apply Fin.ext
    match a with
    | ⟨0, _⟩ => show win0_0.index t (0 : Fin 3) * 1 + 1 * (j 0).val = (win0_2.index t (0 : Fin 3) * 1 + 1 * (j 0).val) / 20; omega
    | ⟨1, _⟩ => show win0_0.index t (1 : Fin 3) * 256 + 1 * (j 1).val = win0_2.index t (1 : Fin 3) * 256 + 1 * (j 1).val; omega
    | ⟨2, _⟩ => show win0_0.index t (2 : Fin 3) * 2048 + 1 * (j 2).val = win0_2.index t (2 : Fin 3) * 2048 + 1 * (j 2).val; omega
  have h1 : ((cfg0.win 1).blk t).view.emb (ix3 (0 : Fin 1) (j 1) (0 : Fin 1))
      = ix3 (classOf (((cfg0.win 2).blk t).view.emb j)) ((((cfg0.win 2).blk t).view.emb j) 1) (0 : Fin 1) := by
    funext a; apply Fin.ext
    match a with
    | ⟨0, _⟩ => show win0_1.index t (0 : Fin 3) * 1 + 1 * 0 = (win0_2.index t (0 : Fin 3) * 1 + 1 * (j 0).val) % 20; omega
    | ⟨1, _⟩ => show win0_1.index t (1 : Fin 3) * 256 + 1 * (j 1).val = win0_2.index t (1 : Fin 3) * 256 + 1 * (j 1).val; omega
    | ⟨2, _⟩ => show win0_1.index t (2 : Fin 3) * 1 + 1 * 0 = 0; omega
  exact congrArg₂ FloatOps.mulf (congrArg (V m c main_v0) h0) (congrArg (V m c main_v1) h1)

/-- An index of the result is in point `t`'s block iff each coordinate is in the block's range on its axis. -/
theorem mem_block (t : Fin cfg0.N) (i : S160x256x2048.Idx) :
    i ∈ ((cfg0.win 2).blk t).view.set
      ↔ ∀ a : Fin 3, win0_2.index t a * S1x256x2048.size a ≤ (i a).val ∧ (i a).val < win0_2.index t a * S1x256x2048.size a + S1x256x2048.size a := by
  show i ∈ ((View.whole main_v2).slice (win0_2.rect t)).set ↔ _
  rw [View.set_slice_whole, Rect.mem_set_unit]
  exact Iff.rfl

/-- Every index of the result is in some point's block: row `r` is in block `r`. -/
theorem covered (i : S160x256x2048.Idx) :
    ∃ t : Fin cfg0.N, (cfg0.win 2).flush t = true ∧ i ∈ ((cfg0.win 2).blk t).view.set := by
  have hi0 : (i 0).val < 160 := (i 0).isLt
  have hi1 : (i 1).val < 256 := (i 1).isLt
  have hi2 : (i 2).val < 2048 := (i 2).isLt
  let t : Fin cfg0.N := ⟨(i 0).val, by rw [show cfg0.N = 160 from N_0]; exact hi0⟩
  obtain ⟨e0, e1, e2, -⟩ := block_indices t
  have ht : t.val = (i 0).val := rfl
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 2048 ≤ (i 2).val ∧ (i 2).val < win0_2.index t (2 : Fin 3) * 2048 + 2048; omega

/-- The two arrays the grid reads, as @main's host operations left them: the query transposed, the weights reshaped. -/
theorem query_transposed (c : Dev nD) :
    (V m c main_v0 : S8x256x2048.Idx → Elt F .f32)
      = transpose S8x256x2048 [0, 2, 1] (m ((c : Thread nD τ).loc main_arg0)) transposes_S8x2048x256_S8x256x2048_0_2_1 := by
  dsimp only [V, hostOps0]; after_results <;> rfl

theorem weights_reshaped (c : Dev nD) :
    (V m c main_v1 : S20x256x1.Idx → Elt F .f32)
      = shapeCast S20x256x1 (m ((c : Thread nD τ).loc main_arg1)) shapeCasts_S20x256_S20x256x1 := by
  dsimp only [V, hostOps0]; after_results <;> rfl

/-- THE RESULT ARRAY after the run is the specification of the argument arrays. -/
theorem final (c : Dev nD) :
    (dats m 0 c).arrAt 2 cfg0.N = scaled (m ((c : Thread nD τ).loc main_arg0)) (m ((c : Thread nD τ).loc main_arg1)) := by
  rw [(dats m 0 c).arrAt_eq_of_cover 2 (scaledT (V m c main_v0) (V m c main_v1)) (fun t _ => flushed_eq m c t) covered,
    query_transposed, weights_reshaped]
  exact scaledT_eq _ _ _ _

/-- The kernel's run, read: the result at the specification of the arguments, the arguments unchanged. -/
theorem run : θ_run defs (onTc (τ := τ) (main (F := F))) ⟨m, fun _ => 0, ρ⟩ fun r => ∀ c : Dev nD,
      r.2.mem ((c : Thread nD τ).loc main_v2) = scaled (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Scale

end
-- ==== Proof.RefScale.lean ====
/-
  The reference computes the specification. Its program transposes the query to [8, 256, 2048], inserts a unit class axis
  and broadcasts it to [8, 20, 256, 2048]; lays the weights out as [1, 20, 256, 1] and broadcasts them to the same shape;
  multiplies entry by entry; and flattens (batch, class) into one axis of 160 rows. Read at result index (r, d, s), the
  reshape keeps the row-major position, which is that of (r / 20, r % 20, d, s) in the four-axis array; the broadcasts
  drop the class coordinate for the query and the batch and position coordinates for the weights; the transpose exchanges
  d and s. What is left is q[r / 20, s, d] · w[r % 20, d], the specification's entry.
-/
import proofs.«100098_j72447508349057_1_alg».proof.Proof.Gen.ReferenceIdeal.Read
import proofs.«100098_j72447508349057_1_alg».proof.Proof.ChannelScale

noncomputable section

namespace Cert.ReferenceIdeal.Scale

open Cert.ReferenceIdeal Cert.ReferenceIdeal.Read Idealize.ShloMosaic Idealize.ShloMosaic.ValueIdx Cert.ChannelScale

variable {F : FTy → Type} [FloatOps F]

/-- Where the reference reads the query for result index `i`: the composed index functions of the reshape, the two
    broadcasts and the transpose land on (r / 20, s, d). -/
theorem query_index (i : S160x256x2048.Idx) :
    idx_main_v0 (idx_main_v1 (idx_main_v3 (idx_main_v6 i))) = ix3 (batchOf i) (i 2) (i 1) := by
  have h0 : (i 0).val < 160 := (i 0).isLt
  have h1 : (i 1).val < 256 := (i 1).isLt
  have h2 : (i 2).val < 2048 := (i 2).isLt
  funext a
  apply Fin.ext
  match a with
  | ⟨0, _⟩ => show (((i 0).val * 256 + (i 1).val) * 2048 + (i 2).val) / 10485760 = (i 0).val / 20; omega
  | ⟨1, _⟩ => show (((i 0).val * 256 + (i 1).val) * 2048 + (i 2).val) % 2048 = (i 2).val; omega
  | ⟨2, _⟩ => show (((i 0).val * 256 + (i 1).val) * 2048 + (i 2).val) / 2048 % 256 = (i 1).val; omega

/-- Where the reference reads the weights for result index `i`: (r % 20, d). -/
theorem weight_index (i : S160x256x2048.Idx) :
    idx_main_v2 (idx_main_v4 (idx_main_v6 i)) = ix2 (classOf i) (i 1) := by
  have h0 : (i 0).val < 160 := (i 0).isLt
  have h1 : (i 1).val < 256 := (i 1).isLt
  have h2 : (i 2).val < 2048 := (i 2).isLt
  funext a
  apply Fin.ext
  match a with
  | ⟨0, _⟩ => show (((i 0).val * 256 + (i 1).val) * 2048 + (i 2).val) / 524288 % 20 = (i 0).val % 20; omega
  | ⟨1, _⟩ => show (((i 0).val * 256 + (i 1).val) * 2048 + (i 2).val) / 2048 % 256 = (i 1).val; omega

/-- The reference's last stage is the specification, at every float instance. -/
theorem result_eq (q : (⟨S8x2048x256, .f32⟩ : BufTy).Contents (Elt F)) (w : (⟨S20x256, .f32⟩ : BufTy).Contents (Elt F)) :
    val_main_v6 (F := F) q w = scaled q w := by
  funext i
  rw [val_main_v6_apply, val_main_v5_apply, val_main_v3_apply, val_main_v1_apply, val_main_v0_apply,
    val_main_v4_apply, val_main_v2_apply, query_index, weight_index]
  rfl

end Cert.ReferenceIdeal.Scale

end
-- ==== Proof.lean ====
/-
  A per-(class, channel) rescaling of a query tensor: from q : [8, 2048, 256] (batch, position, channel) and
  w : [20, 256] (class, channel) both programs produce the [160, 256, 2048] array whose row r = 20·b + n holds
  q[b, s, d] · w[n, d] at (d, s). The kernel walks an 8 × 20 grid over the transposed query and writes one
  [256, 2048] slab per point; the reference broadcasts both operands to [8, 20, 256, 2048], multiplies and flattens
  the two leading axes. Each result entry is a single product of the same two input entries on both sides
  (Proof/ChannelScale.lean states it once; Proof/KernelScale.lean and Proof/RefScale.lean show that each program
  computes it), so the two results agree entry by entry with no algebra and no use of the inputs' finiteness.
  The kernel's idealization rewrote nothing, so it is the kernel's own text read over the extended reals.
-/
import proofs.«100098_j72447508349057_1_alg».proof.Defs
import proofs.«100098_j72447508349057_1_alg».proof.Proof.Gen.Kernel
import proofs.«100098_j72447508349057_1_alg».proof.Proof.Gen.Kernel.Skeleton
import proofs.«100098_j72447508349057_1_alg».proof.Proof.Gen.Kernel.Launch
import proofs.«100098_j72447508349057_1_alg».proof.Proof.Gen.Kernel.Points
import proofs.«100098_j72447508349057_1_alg».proof.Proof.Gen.Kernel.Frame
import proofs.«100098_j72447508349057_1_alg».proof.Proof.Gen.KernelIdeal
import proofs.«100098_j72447508349057_1_alg».proof.Proof.Gen.KernelIdeal.Skeleton
import proofs.«100098_j72447508349057_1_alg».proof.Proof.Gen.KernelIdeal.Launch
import proofs.«100098_j72447508349057_1_alg».proof.Proof.Gen.KernelIdeal.Points
import proofs.«100098_j72447508349057_1_alg».proof.Proof.Gen.KernelIdeal.Frame
import proofs.«100098_j72447508349057_1_alg».proof.Proof.Gen.ReferenceIdeal
import proofs.«100098_j72447508349057_1_alg».proof.Proof.Gen.Pre_finite_inputs
import proofs.«100098_j72447508349057_1_alg».proof.Proof.Gen.KernelIdeal.Value
import proofs.«100098_j72447508349057_1_alg».proof.Proof.Gen.ReferenceIdeal.Run
import proofs.«100098_j72447508349057_1_alg».proof.Proof.Gen.ReferenceIdeal.Read
import proofs.«100098_j72447508349057_1_alg».proof.Proof.ChannelScale
import proofs.«100098_j72447508349057_1_alg».proof.Proof.KernelScale
import proofs.«100098_j72447508349057_1_alg».proof.Proof.RefScale
import Idealize.ShloMosaic.Adequacy
import Idealize.ShloMosaic.Init

noncomputable section

namespace Cert.Proof

open Idealize.ShloMosaic Idealize.SL.Sem Cert.Kernel

/-- The word-level kernel terminates without a fault and leaves its arguments as they were. -/
theorem frame_kernel : Cert.frame_Kernel :=
  fun m ρ _ => Cert.Kernel.Gen.frame m ρ

/-- So does the kernel read over the extended reals. -/
theorem frame_kernel_ideal : Cert.frame_KernelIdeal :=
  fun m ρ _ => Cert.KernelIdeal.Gen.frame m ρ

/-- The reference is a straight line of host operations: its run, with the result dropped. -/
theorem frame_reference_ideal : Cert.frame_ReferenceIdeal :=
  fun m ρ _ => (θ_run Cert.ReferenceIdeal.defs _ _).mono (fun _ h c => (h c).2)
    (Cert.ReferenceIdeal.Value.run (F := Ideal) m ρ)

/-- Both programs end with the result array at the specification of the (agreeing) arguments. -/
theorem algebraic : Cert.algebraic_KernelIdeal_ReferenceIdeal := by
  intro m ρ m' ρ' _ hagree
  refine ⟨fun c => Cert.ChannelScale.scaled (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Scale.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Scale.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
